-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x2048 : Shape := ⟨3, ![8, 2048, 2048]⟩
abbrev S_ : Shape := ⟨0, ![]⟩

class Facts : Prop where
  bcast_S_S8x2048x2048 : S_.BroadcastsInDim S8x2048x2048 (![] : Fin 0 → Fin S8x2048x2048.rank)
  reducesTo_S8x2048x2048_S_d0_1_2 : S8x2048x2048.ReducesTo [0, 1, 2] S_
  h_S_ : 0 < S_.numel

variable [Facts]

def fn {F : FTy → Type} [FloatOps F] (main_arg0 : FVec F S8x2048x2048 .f32) (main_arg1 : FVec F S8x2048x2048 .f32) : IVec S_ 1 :=
  let main_v0 : FVec F S8x2048x2048 .f32 := Host.absf main_arg0
  let main_cst : FVec F S_ .f32 := constant S_ .f32 0x7F800000#32
  let main_v1 : FVec F S8x2048x2048 .f32 := broadcastInDim S8x2048x2048 ![] bcast_S_S8x2048x2048 main_cst
  let main_v2 : IVec S8x2048x2048 1 := cmpf .olt main_v0 main_v1
  let main_c : IVec S_ 1 := constantI S_ 1 1#1
  let main_v3 : IVec S_ 1 := (fun x v => Host.reduce IntOp.andi x v reducesTo_S8x2048x2048_S_d0_1_2 h_S_) main_v2 main_c
  let main_v4 : FVec F S8x2048x2048 .f32 := Host.absf main_arg1
  let main_cst_0 : FVec F S_ .f32 := constant S_ .f32 0x7F800000#32
  let main_v5 : FVec F S8x2048x2048 .f32 := broadcastInDim S8x2048x2048 ![] bcast_S_S8x2048x2048 main_cst_0
  let main_v6 : IVec S8x2048x2048 1 := cmpf .olt main_v4 main_v5
  let main_c_1 : IVec S_ 1 := constantI S_ 1 1#1
  let main_v7 : IVec S_ 1 := (fun x v => Host.reduce IntOp.andi x v reducesTo_S8x2048x2048_S_d0_1_2 h_S_) main_v6 main_c_1
  let main_v8 : IVec S_ 1 := andi main_v3 main_v7
  main_v8
-- ==== Kernel.lean ====
abbrev S8x2048x2048 : Shape := ⟨3, ![8, 2048, 2048]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8x2048x2048, .f32⟩
  | .hbm, ⟨1, _⟩ => ⟨S8x2048x2048, .f32⟩
  | .hbm, ⟨2, _⟩ => ⟨S8x2048x2048, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![8, 2, 2, 2], ![false, false, false, false]⟩

def k0_cond2 (i : grid0.Coords) : BitVec 1 :=
  let arg3 : BitVec 32 := BitVec.ofNat 32 (i 3).val
  let c1_i32 : BitVec 32 := 1#32
  let v15 : BitVec 1 := Scalar.cmpi .eq arg3 c1_i32
  let v16 : BitVec 32 := Scalar.extui v15
  let c0_i32_10 : BitVec 32 := 0#32
  let v17 : BitVec 1 := Scalar.cmpi .ne v16 c0_i32_10
  v17

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

class Facts₀ : Prop where
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  shapeCasts_S1024x1024_S1x1024x1024 : S1024x1024.ShapeCasts S1x1024x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S8x2048x2048.size a
  hwx0_0 : ∀ i : grid0.Coords, EltTy.bits .f32 = 32 ∨ (Rect.block (s := S8x2048x2048) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S8x2048x2048.size a
  hwx0_1 : ∀ i : grid0.Coords, EltTy.bits .f32 = 32 ∨ (Rect.block (s := S8x2048x2048) S1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S8x2048x2048.size a
  hwx0_2 : ∀ i : grid0.Coords, EltTy.bits .f32 = 32 ∨ (Rect.block (s := S8x2048x2048) S1x1024x1024.size (cc0_transform_2 i) (hinb0_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8x2048x2048 : Shape := ⟨3, ![8, 2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x2048x2048, .f32⟩
  | .hbm, ⟨2, _⟩ => ⟨S8x2048x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S8x2048x2048_S8x2048x2048_S8x2048x2048_2_1_1_2_0_0_wf : DotDims.WF S8x2048x2048 S8x2048x2048 S8x2048x2048 [2] [1] [1] [2] [0] [0]

variable [Facts₀]

def dot_S8x2048x2048_S8x2048x2048_S8x2048x2048_2_1_1_2_0_0 : DotDims S8x2048x2048 S8x2048x2048 S8x2048x2048 where
  lhsContracting := [2]
  rhsContracting := [1]
  lhsNonContracting := [1]
  rhsNonContracting := [2]
  lhsBatch := [0]
  rhsBatch := [0]
  wf := dot_S8x2048x2048_S8x2048x2048_S8x2048x2048_2_1_1_2_0_0_wf

class Facts : Prop extends Facts₀ where

variable [Facts]
-- ==== Proof.KernelPieces.lean ====
/-
  What one grid step leaves in the accumulator and in the output tile, as functions of what it read.

  The body at a grid step loads its tile of the left operand (x0) and its tile of the right operand (x1), adds their
  product to the accumulator and stores the accumulator back. At a step with contraction coordinate 0 it first
  stores zeros into the accumulator, so the accumulator it then reads is the zero tile; at a step with contraction
  coordinate 1 the accumulator it reads is what the step before left (xs0), and after the update it copies the
  accumulator into the output tile. Each buffer's final contents are its stores read back: a buffer stored whole
  holds the last store's value, and a whole-buffer load placed after a whole-buffer store reads that store's value.
  Stated for any float instance.
-/
import proofs.«155641_j63831803953664_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A step with contraction coordinate 0 leaves in the accumulator: the zero tile plus the product of its tiles. -/
theorem scratch_A (c : Dev nD) (i : grid0.Coords) (arg4 : Memref sig .tc .vmem S1x1024x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S1024x1024 .f32) (harg7 : arg7.IsWhole) (hc0 : cond0_0 i) (hc1 : ¬cond0_1 i)
    (x0 : Vec F S1x1024x1024 .f32) (x1 : Vec F S1x1024x1024 .f32) :
    sout0_A_0 c i arg4 harg4 arg5 harg5 arg6 harg6 arg7 harg7 hc0 hc1 x0 x1 = k0_pay2 x0 x1 (k0_pay1 (F := F)) := by
  unfold sout0_A_0
  rw [View.read_writes_eq_canon _ _ _ (scover0_A_0 c i arg4 harg4 arg5 harg5 arg6 harg6 arg7 harg7 hc0 hc1 x0 x1)]
  unfold kernelRun0_A
  dsimp only
  sl_unfold_words
  rw [View.canon_cons_unit_zero (S := S1024x1024) hz2, View.readCov_unit_zero (S := S1024x1024) _ hz2]
  simp only [View.readAt_eq_ld, harg4.read_unread, harg5.read_unread, View.ld_unit_zero (S := S1x1024x1024) hz3]

/-- A step with contraction coordinate 1 leaves in the accumulator: what it found there plus the product of its tiles. -/
theorem scratch_B (c : Dev nD) (i : grid0.Coords) (arg4 : Memref sig .tc .vmem S1x1024x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S1024x1024 .f32) (harg7 : arg7.IsWhole) (hc0 : ¬cond0_0 i) (hc1 : cond0_1 i)
    (x0 : Vec F S1x1024x1024 .f32) (x1 : Vec F S1x1024x1024 .f32) (xs0 : Vec F S1024x1024 .f32) :
    sout0_B_0 c i arg4 harg4 arg5 harg5 arg6 harg6 arg7 harg7 hc0 hc1 x0 x1 xs0 = k0_pay2 x0 x1 xs0 := by
  unfold sout0_B_0
  rw [View.read_writes_eq_canon _ _ _ (scover0_B_0 c i arg4 harg4 arg5 harg5 arg6 harg6 arg7 harg7 hc0 hc1 x0 x1 xs0)]
  unfold kernelRun0_B
  dsimp only
  sl_unfold_words
  rw [View.canon_unit_zero hz2]
  simp only [View.readAt_eq_ld, harg4.read_unread, harg5.read_unread, harg7.read_unread,
    View.ld_unit_zero (S := S1x1024x1024) hz3, View.ld_unit_zero (S := S1024x1024) hz2]

/-- … and in the output tile: that same updated accumulator, given a leading unit axis. -/
theorem out_B (c : Dev nD) (i : grid0.Coords) (arg4 : Memref sig .tc .vmem S1x1024x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S1024x1024 .f32) (harg7 : arg7.IsWhole) (hc0 : ¬cond0_0 i) (hc1 : cond0_1 i)
    (x0 : Vec F S1x1024x1024 .f32) (x1 : Vec F S1x1024x1024 .f32) (xs0 : Vec F S1024x1024 .f32) :
    out0_B_2 c i arg4 harg4 arg5 harg5 arg6 harg6 arg7 harg7 hc0 hc1 x0 x1 xs0 = k0_pay3 (k0_pay2 x0 x1 xs0) := by
  unfold out0_B_2
  rw [View.read_writes_eq_canon _ _ _ (cover0_B_2 c i arg4 harg4 arg5 harg5 arg6 harg6 arg7 harg7 hc0 hc1 x0 x1 xs0)]
  unfold kernelRun0_B
  dsimp only
  sl_unfold_words
  rw [View.canon_unit_zero hz3]
  simp only [View.readCov_unit_zero (S := S1024x1024) _ hz2, View.readAt_eq_ld, harg4.read_unread, harg5.read_unread,
    harg7.read_unread, View.ld_unit_zero (S := S1x1024x1024) hz3, View.ld_unit_zero (S := S1024x1024) hz2]

end Cert.KernelIdeal.Pieces

end
-- ==== Proof.LibMatmulPlain.lean ====
/-
  Two general facts about rank-2 blocks at the ideal values, stated for any extents.

  * A kernel's matrix product of an m×k block by a k×n block into the zero accumulator, read at entry (a, b), is the
    plain sum over the contracted coordinate c of A(a, c) · B(c, b), whatever contraction precision the operation
    carries: at the ideal values the product into zero and the host's `dot_general` are the same sum over the
    contraction index, and the library already reads the host's plain product as that sum.
  * A one-row block [1, n] broadcast down m rows, read at (a, b), is the row's entry at column b.
-/
import Idealize.ShloMosaic.PureOps.Ideal.Laws
import Idealize.ShloMosaic.Lib.ValueIdx
import Idealize.ShloMosaic.Lib.StackMember
import Idealize.ShloMosaic.Lib.Pipeline.Value

noncomputable section

open scoped BigOperators

namespace Cert.LibMatmulPlain

open Idealize.ShloMosaic Idealize.ShloMosaic.ValueIdx

/-- The product of an m×k block by a k×n block into the zero accumulator, at the ideal values, read at (a, b):
    Σ_c A(a, c) · B(c, b). The precision argument plays no part: the ideal product is exact. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec _ A B (ix2 a b)).symm.trans
      (StackMember.dotGeneral_plain_apply prec A B a b))

/-- A one-row block broadcast down the rows, read at (a, b), is the row at column b. -/
theorem rowBroadcast_apply {α : Type} {m n : Nat} (x : (⟨2, ![1, n]⟩ : Shape).Idx → α)
    (h : (⟨2, ![1, n]⟩ : Shape).Broadcasts ⟨2, ![m, n]⟩) (a : Fin m) (b : Fin n) :
    broadcastTo ⟨2, ![m, n]⟩ x h (ix2 a b) = x (ix2 0 b) := by
  refine broadcastTo_apply x h (ix2 a b) (ix2 0 b) fun ax => ?_
  match ax with
  | ⟨0, _⟩ => rfl
  | ⟨1, _⟩ =>
    show b.val = if n = 1 then 0 else b.val
    split
    · have := b.isLt; omega
    · rfl

end Cert.LibMatmulPlain

end
-- ==== Proof.KernelPayload.lean ====
/-
  One output tile at the ideal values, entry by entry.

  At the ideal values a change of float format is the identity and a matrix product into a zero accumulator is the
  exact sum over the contracted coordinate. So the accumulator update, read at place (p, q) of the tile, is
      acc(p, q) + Σ_{c < 1024} x0(0, p, c) · x1(0, c, q)
  where x0, x1 are the loaded [1, 1024, 1024] tiles of the two operands (the leading unit axis is dropped before the
  product); the tile of zeros reads 0 everywhere; and the copy into the output tile only puts the unit axis back.
  Two steps one after the other therefore leave, at (p, q),
      (0 + Σ_c a0(0, p, c) · b0(0, c, q)) + Σ_c a1(0, p, c) · b1(0, c, q).
-/
import proofs.«155641_j63831803953664_1_alg».proof.Proof.Gen.KernelIdeal.Skeleton
import proofs.«155641_j63831803953664_1_alg».proof.Proof.LibMatmulPlain
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- The tile of zeros reads 0 at every place. -/
theorem zero_apply (j : S1024x1024.Idx) : k0_pay1 (F := Ideal) j = 0 := by
  unfold k0_pay1
  rw [shapeCast_self]
  exact Ideal.ofBits_zero_f32

/-- The accumulator update at place (p, q): the accumulator there plus the tiles' product there. -/
theorem update_apply (x0 x1 : Vec Ideal S1x1024x1024 .f32) (acc : Vec Ideal S1024x1024 .f32) (p q : Fin 1024) :
    k0_pay2 x0 x1 acc (ix2 p q) = acc (ix2 p q) + ∑ c : Fin 1024, x0 (ix3 0 p c) * x1 (ix3 0 c q) := by
  unfold k0_pay2
  rw [shapeCast_self]
  refine (addf_apply _ _ _).trans (congrArg (acc (ix2 p q) + ·) ?_)
  refine (Cert.LibMatmulPlain.matmul_plain_zero_apply none _ _ p q).trans ?_
  refine Finset.sum_congr rfl fun c _ => ?_
  rw [truncf_apply, truncf_apply, shapeCast_1ab_ab_apply, shapeCast_1ab_ab_apply]

/-- The copy into the output tile at (u, p, q) is the accumulator at (p, q). -/
theorem copy_apply (v : Vec Ideal S1024x1024 .f32) (u : Fin 1) (p q : Fin 1024) :
    k0_pay3 v (ix3 u p q) = v (ix2 p q) := by
  unfold k0_pay3
  exact shapeCast_ab_1ab_apply v _ u p q

/-- Two steps, the first starting from the zero tile: the output tile at (u, p, q). -/
theorem tile_apply (a0 b0 a1 b1 : Vec Ideal S1x1024x1024 .f32) (u : Fin 1) (p q : Fin 1024) :
    k0_pay3 (k0_pay2 a1 b1 (k0_pay2 a0 b0 (k0_pay1 (F := Ideal)))) (ix3 u p q)
      = (0 + ∑ c : Fin 1024, a0 (ix3 0 p c) * b0 (ix3 0 c q)) + ∑ c : Fin 1024, a1 (ix3 0 p c) * b1 (ix3 0 c q) := by
  rw [copy_apply, update_apply, update_apply, zero_apply]

end Cert.KernelIdeal.Payload

end
-- ==== Proof.BmmSpec.lean ====
/-
  The batched matrix product over the extended reals, and the law that joins the two ways of summing it.

  For arrays A, B of shape [8, 2048, 2048] the product is, at index (b, s, n),
      Σ_{k < 2048} A(b, s, k) · B(b, k, n).
  The contraction range splits into its lower half {0..1023} and its upper half {1024..2047}; a sum that starts
  from zero, adds the lower half's partial sum and then the upper half's is the whole sum. This needs only that
  addition of extended reals is a commutative monoid (no finiteness of the entries is used): 0 + x = x, and a sum
  over Fin (1024 + 1024) is the sum over the first 1024 indices plus the sum over the last 1024.

  Row s = 1024·i + p and column n = 1024·j + q name an entry by its tile (i, j) and its place (p, q) in the tile.
-/
import Idealize.ShloMosaic.PureOps.Ideal.Laws
import Idealize.ShloMosaic.Lib.ValueIdx

noncomputable section

open scoped BigOperators

namespace Cert.Bmm

open Idealize.ShloMosaic Idealize.ShloMosaic.ValueIdx

/-- The shape of both operands and of the result. -/
abbrev SArr : Shape := ⟨3, ![8, 2048, 2048]⟩

/-- The batched product: entry (b, s, n) is Σ_k A(b, s, k) · B(b, k, n). -/
def bmm (A B : SArr.Idx → EReal) : SArr.Idx → EReal :=
  fun i => ∑ k : Fin 2048, A (ix3 (i 0) (i 1) k) * B (ix3 (i 0) k (i 2))

/-- Coordinate 1024·h + p of a length-2048 axis: place p of half (or tile) h. -/
def at2 (h : Fin 2) (p : Fin 1024) : Fin 2048 := ⟨1024 * h.val + p.val, by have := h.isLt; have := p.isLt; omega⟩

theorem at2_val (h : Fin 2) (p : Fin 1024) : (at2 h p).val = 1024 * h.val + p.val := rfl

/-- Zero, plus the sum over the lower half, plus the sum over the upper half, is the sum over the whole range. -/
theorem sum_halves (f : Fin 2048 → EReal) :
    (0 + ∑ c : Fin 1024, f (at2 0 c)) + ∑ c : Fin 1024, f (at2 1 c) = ∑ k : Fin 2048, f k := by
  -- the first 1024 indices of Fin (1024 + 1024) are the lower half, the last 1024 the upper half
  rw [zero_add, Fin.sum_univ_add (a := 1024) (b := 1024) f]
  exact congrArg₂ (· + ·)
    (Finset.sum_congr rfl fun c _ => congrArg f (Fin.ext (by show 1024 * 0 + c.val = c.val; omega)))
    (Finset.sum_congr rfl fun c _ => congrArg f (Fin.ext (by show 1024 * 1 + c.val = 1024 + c.val; omega)))

/-- The product's entry in tile (i, j) at place (p, q): zero, plus the lower-half partial product, plus the
    upper-half partial product. -/
theorem bmm_tile (A B : SArr.Idx → EReal) (b : Fin 8) (i j : Fin 2) (p q : Fin 1024) :
    (0 + ∑ c : Fin 1024, A (ix3 b (at2 i p) (at2 0 c)) * B (ix3 b (at2 0 c) (at2 j q)))
        + ∑ c : Fin 1024, A (ix3 b (at2 i p) (at2 1 c)) * B (ix3 b (at2 1 c) (at2 j q))
      = bmm A B (ix3 b (at2 i p) (at2 j q)) :=
  sum_halves fun k => A (ix3 b (at2 i p) k) * B (ix3 b k (at2 j q))

end Cert.Bmm

end
-- ==== Proof.KernelValue.lean ====
/-
  The kernel's result array at the ideal values is the batched matrix product of its arguments.

  The grid is 8 × 2 × 2 × 2 with the contraction coordinate fastest: grid step t has batch b = t / 8, row tile
  i = t / 4 % 2, column tile j = t / 2 % 2 and contraction half k = t % 2. At step t the left operand's tile is
  A[b, 1024·i .. , 1024·k ..], the right operand's is B[b, 1024·k .. , 1024·j ..], and the output tile is
  out[b, 1024·i .. , 1024·j ..]. The output tile is written back only at the odd steps (k = 1), where it holds the
  accumulator after two updates: the step before (k = 0, same b, i, j) reset the accumulator to zero and added the
  lower-half partial product, this step adds the upper-half partial product. Entry (p, q) of that tile is therefore
      (0 + Σ_{c<1024} A(b, 1024 i + p, c) · B(b, c, 1024 j + q)) + Σ_{c<1024} A(b, 1024 i + p, 1024 + c) · B(b, 1024 + c, 1024 j + q),
  which is the whole contraction Σ_{k<2048} A(b, 1024 i + p, k) · B(b, k, 1024 j + q). The 32 output tiles written at the
  odd steps tile the whole [8, 2048, 2048] array, so the array ends holding the product everywhere.
-/
import proofs.«155641_j63831803953664_1_alg».proof.Proof.Gen.KernelIdeal.Value
import proofs.«155641_j63831803953664_1_alg».proof.Proof.KernelPieces
import proofs.«155641_j63831803953664_1_alg».proof.Proof.KernelPayload
import proofs.«155641_j63831803953664_1_alg».proof.Proof.BmmSpec

noncomputable section

open scoped BigOperators

open Idealize.ShloMosaic Idealize.ShloMosaic.TcCoe Idealize.SL.Sem Idealize.ShloMosaic.ValueIdx
open Idealize.ShloMosaic.Pipeline (Dat)

namespace Cert.KernelIdeal.TileValue

open Cert.KernelIdeal Cert.KernelIdeal.Gen Cert.Bmm

variable (m : (ℓ : Loc nD τ sig) → Buf (Elt Ideal) ℓ) (ρ : Dev nD → PrngReg)

/-! ## The grid step's coordinates and the three index maps -/

/-- The block index of each window at grid step t, from t alone: batch t / 8, row tile t / 4 % 2, column tile
    t / 2 % 2, contraction half t % 2 (decided over the 64 steps). -/
theorem idx_facts : ∀ t : Fin cfg0.N,
    win0_0.index t (0 : Fin 3) = t.val / 8 ∧ win0_0.index t (1 : Fin 3) = t.val / 4 % 2 ∧ win0_0.index t (2 : Fin 3) = t.val % 2
    ∧ win0_1.index t (0 : Fin 3) = t.val / 8 ∧ win0_1.index t (1 : Fin 3) = t.val % 2 ∧ win0_1.index t (2 : Fin 3) = t.val / 2 % 2
    ∧ win0_2.index t (0 : Fin 3) = t.val / 8 ∧ win0_2.index t (1 : Fin 3) = t.val / 4 % 2 ∧ win0_2.index t (2 : Fin 3) = t.val / 2 % 2 :=
  (by decide +kernel : ∀ t : Fin grid0.N, _)

theorem lt64 (t : Fin cfg0.N) : t.val < 64 := lt_of_lt_of_eq t.isLt (show cfg0.N = 64 from N_0)

/-- Batch, row tile, column tile and contraction half of step t. -/
def bOf (t : Fin cfg0.N) : Fin 8 := ⟨t.val / 8, by have := lt64 t; omega⟩
def iOf (t : Fin cfg0.N) : Fin 2 := ⟨t.val / 4 % 2, by omega⟩
def jOf (t : Fin cfg0.N) : Fin 2 := ⟨t.val / 2 % 2, by omega⟩
def kOf (t : Fin cfg0.N) : Fin 2 := ⟨t.val % 2, by omega⟩

/-- The step before t. -/
def prev (t : Fin cfg0.N) : Fin cfg0.N := ⟨t.val - 1, Nat.lt_of_le_of_lt (Nat.sub_le _ _) t.isLt⟩

/-! ## The operands' tiles -/

/-- The left operand's and the right operand's tile at step t, at their literal shape. -/
abbrev ablk (c : Dev nD) (t : Fin cfg0.N) : Vec Ideal S1x1024x1024 .f32 := iblk m c 0 t
abbrev bblk (c : Dev nD) (t : Fin cfg0.N) : Vec Ideal S1x1024x1024 .f32 := iblk m c 1 t

/-- The left tile at (u, p, cc) is A at (b, 1024·i + p, 1024·k + cc). -/
theorem ablk_apply (c : Dev nD) (t : Fin cfg0.N) (u : Fin 1) (p cc : Fin 1024) :
    ablk m c t (ix3 u p cc) = m ((c : Thread nD τ).loc main_arg0) (ix3 (bOf t) (at2 (iOf t) p) (at2 (kOf t) cc)) := by
  obtain ⟨e0, e1, e2, -⟩ := idx_facts t
  have hu : u.val = 0 := by omega
  unfold ablk iblk
  rw [View.read_apply]
  show V m c main_arg0 _ = m (c.tc.loc main_arg0) _
  unfold V
  congr 1
  funext a
  apply Fin.ext
  match a with
  | ⟨0, _⟩ => show win0_0.index t (0 : Fin 3) * 1 + 1 * u.val = t.val / 8; rw [e0, hu]; omega
  | ⟨1, _⟩ => show win0_0.index t (1 : Fin 3) * 1024 + 1 * p.val = 1024 * (t.val / 4 % 2) + p.val; rw [e1]; omega
  | ⟨2, _⟩ => show win0_0.index t (2 : Fin 3) * 1024 + 1 * cc.val = 1024 * (t.val % 2) + cc.val; rw [e2]; omega

/-- The right tile at (u, cc, q) is B at (b, 1024·k + cc, 1024·j + q). -/
theorem bblk_apply (c : Dev nD) (t : Fin cfg0.N) (u : Fin 1) (cc q : Fin 1024) :
    bblk m c t (ix3 u cc q) = m ((c : Thread nD τ).loc main_arg1) (ix3 (bOf t) (at2 (kOf t) cc) (at2 (jOf t) q)) := by
  obtain ⟨-, -, -, e0, e1, e2, -⟩ := idx_facts t
  have hu : u.val = 0 := by omega
  unfold bblk iblk
  rw [View.read_apply]
  show V m c main_arg1 _ = m (c.tc.loc main_arg1) _
  unfold V
  congr 1
  funext a
  apply Fin.ext
  match a with
  | ⟨0, _⟩ => show win0_1.index t (0 : Fin 3) * 1 + 1 * u.val = t.val / 8; rw [e0, hu]; omega
  | ⟨1, _⟩ => show win0_1.index t (1 : Fin 3) * 1024 + 1 * cc.val = 1024 * (t.val % 2) + cc.val; rw [e1]; omega
  | ⟨2, _⟩ => show win0_1.index t (2 : Fin 3) * 1024 + 1 * q.val = 1024 * (t.val / 2 % 2) + q.val; rw [e2]; omega

/-! ## What an odd step leaves in the output tile -/

/-- After an even step the accumulator holds the zero tile updated with that step's tiles. -/
theorem acc_even (c : Dev nD) (t : Fin cfg0.N) (h0 : t.val % 2 = 0) (h1 : ¬t.val % 2 = 1) :
    (outsAt0 m c t.val t.isLt).2 = k0_pay2 (ablk m c t) (bblk m c t) (k0_pay1 (F := Ideal)) := by
  rw [outsAt0_A m c t h0 h1]
  dsimp only
  exact Pieces.scratch_A c (grid0.coords t) (ms0_0 t) (hs0_0 t) (ms0_1 t) (hs0_1 t) (ms0_2 t) (hs0_2 t) scM0_0
    (Memref.isWhole_whole _) ((hcond0_0 t).mpr h0) (fun h => h1 ((hcond0_1 t).mp h)) (iblk m c 0 t) (iblk m c 1 t)

/-- After an odd step the output tile holds the accumulator after this step's update of what the step before left. -/
theorem out_odd (c : Dev nD) (t : Fin cfg0.N) (h0 : ¬t.val % 2 = 0) (h1 : t.val % 2 = 1) :
    (outsAt0 m c t.val t.isLt).1
      = k0_pay3 (k0_pay2 (ablk m c t) (bblk m c t) (k0_pay2 (ablk m c (prev t)) (bblk m c (prev t)) (k0_pay1 (F := Ideal)))) := by
  have hp0 : (prev t).val % 2 = 0 := by show (t.val - 1) % 2 = 0; omega
  have hp1 : ¬(prev t).val % 2 = 1 := by show ¬(t.val - 1) % 2 = 1; omega
  rw [outsAt0_B m c t h0 h1]
  dsimp only
  refine (Pieces.out_B c (grid0.coords t) (ms0_0 t) (hs0_0 t) (ms0_1 t) (hs0_1 t) (ms0_2 t) (hs0_2 t) scM0_0
    (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2).trans ?_
  exact congrArg (fun acc => k0_pay3 (k0_pay2 (ablk m c t) (bblk m c t) acc)) (acc_even m c (prev t) hp0 hp1)

/-! ## The result array -/

/-- The batched product of the two arguments as launched. -/
abbrev result (c : Dev nD) : Buf (Elt Ideal) ((c : Thread nD τ).loc main_v0) :=
  bmm (m ((c : Thread nD τ).loc main_arg0)) (m ((c : Thread nD τ).loc main_arg1))

/-- Entry (u, p, q) of the tile an odd step leaves is the product's entry (b, 1024·i + p, 1024·j + q). -/
theorem tile_eq (c : Dev nD) (t : Fin cfg0.N) (h1 : t.val % 2 = 1) (u : Fin 1) (p q : Fin 1024) :
    k0_pay3 (k0_pay2 (ablk m c t) (bblk m c t) (k0_pay2 (ablk m c (prev t)) (bblk m c (prev t)) (k0_pay1 (F := Ideal)))) (ix3 u p q)
      = result m c (ix3 (bOf t) (at2 (iOf t) p) (at2 (jOf t) q)) := by
  have hb : bOf (prev t) = bOf t := Fin.ext (by show (t.val - 1) / 8 = t.val / 8; omega)
  have hi : iOf (prev t) = iOf t := Fin.ext (by show (t.val - 1) / 4 % 2 = t.val / 4 % 2; omega)
  have hj : jOf (prev t) = jOf t := Fin.ext (by show (t.val - 1) / 2 % 2 = t.val / 2 % 2; omega)
  have hk0 : kOf (prev t) = 0 := Fin.ext (by show (t.val - 1) % 2 = 0; omega)
  have hk1 : kOf t = 1 := Fin.ext (by show t.val % 2 = 1; exact h1)
  rw [Payload.tile_apply]
  simp only [ablk_apply, bblk_apply, hb, hi, hj, hk0, hk1]
  exact bmm_tile _ _ (bOf t) (iOf t) (jOf t) p q

/-- What an odd step writes back is its block of the product. -/
theorem flushed_eq (c : Dev nD) (t : Fin cfg0.N) (hf : (cfg0.win 2).flush t = true) :
    (dats m 0 c).flushed 2 t = ((cfg0.win 2).blk t).view.read (Elt Ideal) (result m c) := by
  have h1 : t.val % 2 = 1 := (flush0_2 t).mp hf
  have h0 : ¬t.val % 2 = 0 := by omega
  obtain ⟨-, -, -, -, -, -, e0, e1, e2⟩ := idx_facts t
  rw [Value.flushed2, out_odd m c t h0 h1]
  funext y
  obtain ⟨u, p, q, rfl⟩ : ∃ (u : Fin 1) (p q : Fin 1024), y = ix3 u p q := ⟨y 0, y 1, y 2, eq_ix3 y⟩
  have hu : u.val = 0 := by omega
  refine (tile_eq m c t h1 u p q).trans ?_
  rw [View.read_apply]
  congr 1
  funext a
  apply Fin.ext
  match a with
  | ⟨0, _⟩ => show t.val / 8 = win0_2.index t (0 : Fin 3) * 1 + 1 * u.val; rw [e0, hu]; omega
  | ⟨1, _⟩ => show 1024 * (t.val / 4 % 2) + p.val = win0_2.index t (1 : Fin 3) * 1024 + 1 * p.val; rw [e1]; omega
  | ⟨2, _⟩ => show 1024 * (t.val / 2 % 2) + q.val = win0_2.index t (2 : Fin 3) * 1024 + 1 * q.val; rw [e2]; omega

/-- An index of the array is in step t's output block iff each coordinate is in the block's range on its axis. -/
theorem mem_blk (t : Fin cfg0.N) (i : S8x2048x2048.Idx) :
    i ∈ ((cfg0.win 2).blk t).view.set ↔ ∀ a : Fin 3, win0_2.index t a * S1x1024x1024.size a ≤ (i a).val ∧ (i a).val < win0_2.index t a * S1x1024x1024.size a + S1x1024x1024.size a := by
  show i ∈ ((View.whole main_v0).slice (win0_2.rect t)).set ↔ _
  rw [View.set_slice_whole, Rect.mem_set_unit]
  exact Iff.rfl

/-- Every index (b, s, n) lies in the block written back at the odd step with batch b, row tile s / 1024 and
    column tile n / 1024. -/
theorem cover (i : S8x2048x2048.Idx) :
    ∃ t : Fin cfg0.N, (cfg0.win 2).flush t = true ∧ i ∈ ((cfg0.win 2).blk t).view.set := by
  have h0 : (i 0).val < 8 := (i 0).isLt
  have h1 : (i 1).val < 2048 := (i 1).isLt
  have h2 : (i 2).val < 2048 := (i 2).isLt
  have hN : cfg0.N = 64 := N_0
  obtain ⟨t, ht⟩ : ∃ t : Fin cfg0.N, t.val = 8 * (i 0).val + 4 * ((i 1).val / 1024) + 2 * ((i 2).val / 1024) + 1 :=
    ⟨⟨8 * (i 0).val + 4 * ((i 1).val / 1024) + 2 * ((i 2).val / 1024) + 1, by rw [hN]; omega⟩, rfl⟩
  obtain ⟨-, -, -, -, -, -, e0, e1, e2⟩ := idx_facts t
  refine ⟨t, (flush0_2 t).mpr (by omega), ?_⟩
  rw [mem_blk]
  intro a
  match a with
  | ⟨0, _⟩ => show win0_2.index t (0 : Fin 3) * 1 ≤ (i 0).val ∧ (i 0).val < win0_2.index t (0 : Fin 3) * 1 + 1; rw [e0]; omega
  | ⟨1, _⟩ => show win0_2.index t (1 : Fin 3) * 1024 ≤ (i 1).val ∧ (i 1).val < win0_2.index t (1 : Fin 3) * 1024 + 1024; rw [e1]; omega
  | ⟨2, _⟩ => show win0_2.index t (2 : Fin 3) * 1024 ≤ (i 2).val ∧ (i 2).val < win0_2.index t (2 : Fin 3) * 1024 + 1024; rw [e2]; omega

/-- The result array after the run is the batched product. -/
theorem final (c : Dev nD) : (dats m 0 c).arrAt 2 cfg0.N = result m c :=
  (dats m 0 c).arrAt_eq_of_cover 2 (result m c) (flushed_eq m c) cover

/-- The run: the result array at the batched product of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.TileValue

end
-- ==== Proof.RefBmm.lean ====
/-
  The reference's result is the batched matrix product.

  The reference is one host contraction: batch axis 0 of both operands, the left operand's axis 2 against the right
  operand's axis 1. At the ideal values its entry (b, s, n) is the sum over k of the left operand at (b, s, k) times
  the right operand at (b, k, n): the generated reading of the contraction gives that sum, with the two operand
  indices written out coordinate by coordinate; they are the indices the product's definition names.
-/
import proofs.«155641_j63831803953664_1_alg».proof.Proof.Gen.ReferenceIdeal.Read
import proofs.«155641_j63831803953664_1_alg».proof.Proof.BmmSpec

noncomputable section

open scoped BigOperators

namespace Cert.ReferenceIdeal.RefValue

open Cert.ReferenceIdeal Cert.ReferenceIdeal.Gen Idealize.ShloMosaic Idealize.ShloMosaic.ValueIdx

/-- The left operand's index at contraction coordinate k: (b, s, k). -/
theorem lidx_eq (i : S8x2048x2048.Idx) (k : Fin 2048) : Read.lidx_main_v0 i k = ix3 (i 0) (i 1) k :=
  funext fun a => by match a with | ⟨0, _⟩ => rfl | ⟨1, _⟩ => rfl | ⟨2, _⟩ => rfl

/-- The right operand's index at contraction coordinate k: (b, k, n). -/
theorem ridx_eq (i : S8x2048x2048.Idx) (k : Fin 2048) : Read.ridx_main_v0 i k = ix3 (i 0) k (i 2) :=
  funext fun a => by match a with | ⟨0, _⟩ => rfl | ⟨1, _⟩ => rfl | ⟨2, _⟩ => rfl

/-- The host contraction of the two arguments is their batched product, entry by entry. -/
theorem result_eq (x0 x1 : FVec Ideal S8x2048x2048 .f32) :
    Host.dotGeneral dot_S8x2048x2048_S8x2048x2048_S8x2048x2048_2_1_1_2_0_0 none x0 x1 = Cert.Bmm.bmm x0 x1 := by
  funext i
  refine (Read.val_main_v0_apply x0 x1 i).trans ?_
  unfold Cert.Bmm.bmm
  refine Finset.sum_congr rfl fun k _ => ?_
  rw [lidx_eq, ridx_eq]
  rfl

end Cert.ReferenceIdeal.RefValue

end
-- ==== Proof.lean ====
/- The certificate of a batched matrix product computed tile by tile.

   The kernel computes out[b] = a[b] · b[b] for 8 batches of 2048 × 2048 matrices on a grid of 8 × 2 × 2 × 2 steps: for
   each batch and each 1024 × 1024 output tile, two steps walk the two halves of the contracted axis, accumulating
   the partial products in a scratch accumulator that the first of them resets to zero and the second copies into
   the output tile. The reference is one host contraction of the whole arrays.

   Over the extended reals the operands' narrowing to a shorter float format is the identity and both sides are exact
   sums of products, so every output entry is the same sum Σ_{k<2048} a(b, s, k) · b(b, k, n), once as
   (0 + lower half) + upper half and once as the whole range: equal because addition of extended reals is a
   commutative monoid. No finiteness of the inputs is used.

   The three frames are the generated ones (the reference's is its run with the result dropped); the idealization
   rewrote nothing, so there is nothing to preserve. The kernel's result array is read off its generated run
   (Proof/KernelPieces.lean: what one step leaves; Proof/KernelPayload.lean: a tile entry by entry;
   Proof/KernelValue.lean: the tiles and the whole array), the reference's off its generated run (Proof/RefBmm.lean),
   both as the function of Proof/BmmSpec.lean. -/
import proofs.«155641_j63831803953664_1_alg».proof.Defs
import proofs.«155641_j63831803953664_1_alg».proof.Proof.Gen.Kernel
import proofs.«155641_j63831803953664_1_alg».proof.Proof.Gen.Kernel.Skeleton
import proofs.«155641_j63831803953664_1_alg».proof.Proof.Gen.Kernel.Launch
import proofs.«155641_j63831803953664_1_alg».proof.Proof.Gen.Kernel.Points
import proofs.«155641_j63831803953664_1_alg».proof.Proof.Gen.Kernel.Frame
import proofs.«155641_j63831803953664_1_alg».proof.Proof.Gen.KernelIdeal
import proofs.«155641_j63831803953664_1_alg».proof.Proof.Gen.KernelIdeal.Skeleton
import proofs.«155641_j63831803953664_1_alg».proof.Proof.Gen.KernelIdeal.Launch
import proofs.«155641_j63831803953664_1_alg».proof.Proof.Gen.KernelIdeal.Points
import proofs.«155641_j63831803953664_1_alg».proof.Proof.Gen.KernelIdeal.Frame
import proofs.«155641_j63831803953664_1_alg».proof.Proof.Gen.ReferenceIdeal
import proofs.«155641_j63831803953664_1_alg».proof.Proof.Gen.Pre_finite_inputs
import proofs.«155641_j63831803953664_1_alg».proof.Proof.Gen.KernelIdeal.Value
import proofs.«155641_j63831803953664_1_alg».proof.Proof.Gen.ReferenceIdeal.Run
import proofs.«155641_j63831803953664_1_alg».proof.Proof.Gen.ReferenceIdeal.Read
import proofs.«155641_j63831803953664_1_alg».proof.Proof.KernelValue
import proofs.«155641_j63831803953664_1_alg».proof.Proof.RefBmm
import Idealize.ShloMosaic.Adequacy
import Idealize.ShloMosaic.Init

noncomputable section

namespace Cert.Proof

open Idealize.ShloMosaic Idealize.SL.Sem Cert.Kernel

/-- The word-level kernel runs and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and leaves its arguments unchanged: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the two arguments both programs end with the batched product of those arguments
    in their result arrays. -/
theorem algebraic : Cert.algebraic_KernelIdeal_ReferenceIdeal := by
  intro m ρ m' ρ' _ hagree
  refine ⟨fun c => Cert.KernelIdeal.TileValue.result m c, Cert.KernelIdeal.TileValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
